-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S1024 : Shape := ⟨1, ![1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x256 .f32) (main_arg1 : FVec F S1024x256 .f32) (main_arg2 : FVec F S1024 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x256 : Shape := ⟨2, ![32768, 256]⟩
abbrev S1024x256 : Shape := ⟨2, ![1024, 256]⟩
abbrev S1024 : Shape := ⟨1, ![1024]⟩
abbrev S1x1024 : Shape := ⟨2, ![1, 1024]⟩
abbrev S32768x1024 : Shape := ⟨2, ![32768, 1024]⟩
abbrev S2048x256 : Shape := ⟨2, ![2048, 256]⟩
abbrev S2048x1024 : Shape := ⟨2, ![2048, 1024]⟩
abbrev S32768x32x16x2 : Shape := ⟨4, ![32768, 32, 16, 2]⟩

abbrev nBuf : Space → Nat
  | .hbm => 6
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S1024, .f32⟩
  | .hbm, ⟨3, _⟩ => ⟨S1x1024, .f32⟩
  | .hbm, ⟨4, _⟩ => ⟨S32768x1024, .f32⟩
  | .hbm, ⟨5, _⟩ => ⟨S32768x32x16x2, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S32768x1024_S32768x32x16x2 : S32768x1024.ShapeCasts S32768x32x16x2
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S1024 : Shape := ⟨1, ![1024]⟩
abbrev S32768x1024 : Shape := ⟨2, ![32768, 1024]⟩
abbrev S1x1024 : Shape := ⟨2, ![1, 1024]⟩
abbrev S_ : Shape := ⟨0, ![]⟩
abbrev S32768x32x16x2 : Shape := ⟨4, ![32768, 32, 16, 2]⟩

abbrev nBuf : Space → Nat
  | .hbm => 16
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x32x16x2, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  shapeCasts_S32768x1024_S32768x32x16x2 : S32768x1024.ShapeCasts S32768x32x16x2
  dot_S32768x256_S1024x256_S32768x1024_1_1_0_0_n_n_wf : DotDims.WF S32768x256 S1024x256 S32768x1024 [1] [1] [0] [0] [] []

variable [Facts₀]

def dot_S32768x256_S1024x256_S32768x1024_1_1_0_0_n_n : DotDims S32768x256 S1024x256 S32768x1024 where
  lhsContracting := [1]
  rhsContracting := [1]
  lhsNonContracting := [0]
  rhsNonContracting := [0]
  lhsBatch := []
  rhsBatch := []
  wf := dot_S32768x256_S1024x256_S32768x1024_1_1_0_0_n_n_wf

class Facts : Prop extends Facts₀ where

variable [Facts]
-- ==== Proof.SigmoidLaw.lean ====
/-
  The logistic function in two spellings, on the extended reals.

  One program computes `h * (tanh (h * z) + 1)` with `h` the float one half; the other computes
  `1 / (1 + exp (-z))`. On the reals these are one function: with `a = exp (z / 2)`,
  `tanh (z / 2) = (a - 1/a) / (a + 1/a)`, so `(tanh (z / 2) + 1) / 2 = a / (a + 1/a) = 1 / (1 + 1/a²)`,
  and `1/a² = exp (-z)`. At the two infinities the conventions of the ideal operations agree as well:
  at `+∞` both sides are `1` (`tanh ⊤ = 1`; `exp ⊥ = 0`), at `-∞` both are `0`
  (`tanh ⊥ = -1`; `exp ⊤ = ⊤` and `1 / ⊤ = 0`). So the law holds at EVERY extended real, and nothing
  about the inputs being finite is needed.
-/
import Idealize.ShloMosaic.PureOps.Ideal

noncomputable section

namespace Cert.SigmoidLaw

open Idealize.ShloMosaic

/-- The float `1.0` denotes the number one. -/
theorem ofBits_one : Ideal.ofBits .f32 0x3F800000#32 = 1 := by
  simp [Ideal.ofBits, Ideal.ieee, -EReal.coe_mul]; norm_num

/-- The float `0.5` denotes the real one half. -/
theorem ofBits_half : Ideal.ofBits .f32 0x3F000000#32 = ((1 / 2 : ℝ) : EReal) := by
  simp [Ideal.ofBits, Ideal.ieee, -EReal.coe_mul]; norm_num

/-- On the reals: `(tanh (r/2) + 1) / 2 = 1 / (1 + e^(-r))`. -/
theorem real_law (r : ℝ) :
    (1 / 2 : ℝ) * (Real.tanh ((1 / 2) * r) + 1) = 1 * (1 / (1 + Real.exp (-r))) := by
  have ha : 0 < Real.exp ((1 / 2) * r) := Real.exp_pos _
  have hb : Real.exp (-((1 / 2) * r)) = (Real.exp ((1 / 2) * r))⁻¹ := Real.exp_neg _
  have hc : Real.exp (-r) = (Real.exp ((1 / 2) * r))⁻¹ * (Real.exp ((1 / 2) * r))⁻¹ := by
    rw [← hb, ← Real.exp_add]; congr 1; ring
  rw [Real.tanh_eq_sinh_div_cosh, Real.sinh_eq, Real.cosh_eq, hb, hc]
  have hne : Real.exp ((1 / 2) * r) ≠ 0 := ha.ne'
  field_simp
  ring

/-- The law at every extended real. -/
theorem law (z : EReal) :
    ((1 / 2 : ℝ) : EReal) * (Ideal.tanh (((1 / 2 : ℝ) : EReal) * z) + 1)
      = Ideal.div 1 (1 + Ideal.exp (-z)) := by
  induction z with
  | bot =>
    have h1 : ((-1 : EReal) + 1) = 0 := by
      rw [show (-1 : EReal) = ((-1 : ℝ) : EReal) by rw [EReal.coe_neg, EReal.coe_one], ← EReal.coe_one, ← EReal.coe_add]
      norm_num
    rw [EReal.coe_mul_bot_of_pos (by norm_num), Ideal.tanh_bot, h1, mul_zero, EReal.neg_bot, Ideal.exp_top,
      ← EReal.coe_one, EReal.coe_add_top, Ideal.div, if_neg (by simp), EReal.inv_top, mul_zero]
  | top =>
    have h2 : ((1 / 2 : ℝ) : EReal) * (1 + 1) = 1 := by
      rw [← EReal.coe_one, ← EReal.coe_add, ← EReal.coe_mul]; norm_num
    rw [EReal.coe_mul_top_of_pos (by norm_num), Ideal.tanh_top, h2, EReal.neg_top, Ideal.exp_bot, add_zero]
    rw [← EReal.coe_one, Ideal.div_coe one_ne_zero, ← EReal.coe_mul]; norm_num
  | coe r =>
    have hpos : (1 + Real.exp (-r)) ≠ 0 := (add_pos one_pos (Real.exp_pos _)).ne'
    rw [← EReal.coe_mul, Ideal.tanh_coe, ← EReal.coe_neg, Ideal.exp_coe, ← EReal.coe_one, ← EReal.coe_add,
      ← EReal.coe_add, ← EReal.coe_mul, Ideal.div_coe hpos, ← EReal.coe_mul, real_law]

end Cert.SigmoidLaw

end
-- ==== Proof.Heads.lean ====
/-
  The function both programs compute, before the final re-layout.

  There are 1024 heads; head `n` is a linear functional of a 256-feature row followed by the logistic
  function. For the batch of 32768 rows the result, at row `r` and head `n`, is

      heads x w b (r, n) = 1 / (1 + exp (-(∑ₖ x[r,k] · w[n,k] + b[n])))

  — every operation read on the extended reals (the exact sum of the 256 products, `Ideal.exp`, `Ideal.div`).
  `logit` names the affine part. Nothing here mentions either program.
-/
import Idealize.ShloMosaic.Lib.ValueIdx
import proofs.«409818_j46265387712928_3_alg».proof.Proof.SigmoidLaw

noncomputable section

namespace Cert.Heads

open Idealize.ShloMosaic Idealize.ShloMosaic.ValueIdx

/-- Row `r` of the features against row `n` of the weights, plus head `n`'s bias. -/
def logit (x : (⟨2, ![32768, 256]⟩ : Shape).Idx → EReal) (w : (⟨2, ![1024, 256]⟩ : Shape).Idx → EReal)
    (b : (⟨1, ![1024]⟩ : Shape).Idx → EReal) (r : Fin 32768) (n : Fin 1024) : EReal :=
  (∑ k : Fin 256, x (ix2 r k) * w (ix2 n k)) + b (ix1 n)

/-- The logistic function of the logit, at every row and head. -/
def heads (x : (⟨2, ![32768, 256]⟩ : Shape).Idx → EReal) (w : (⟨2, ![1024, 256]⟩ : Shape).Idx → EReal)
    (b : (⟨1, ![1024]⟩ : Shape).Idx → EReal) : (⟨2, ![32768, 1024]⟩ : Shape).Idx → EReal :=
  fun i => Ideal.div 1 (1 + Ideal.exp (-(logit x w b (i 0) (i 1))))

/-- The same through the hyperbolic tangent: `(tanh (z/2) + 1) / 2` of the logit `z`. -/
theorem heads_apply_tanh (x : (⟨2, ![32768, 256]⟩ : Shape).Idx → EReal) (w : (⟨2, ![1024, 256]⟩ : Shape).Idx → EReal)
    (b : (⟨1, ![1024]⟩ : Shape).Idx → EReal) (r : Fin 32768) (n : Fin 1024) :
    heads x w b (ix2 r n)
      = ((1 / 2 : ℝ) : EReal) * (Ideal.tanh (((1 / 2 : ℝ) : EReal) * logit x w b r n) + 1) :=
  (Cert.SigmoidLaw.law _).symm

end Cert.Heads

end
-- ==== Proof.Payload.lean ====
/-
  One grid step of the kernel, read at one entry.

  A step holds 2048 rows of the features (`xb`), the whole weight matrix (`wb`) and the bias as a single row (`bb`).
  It multiplies the feature block by the transposed weights on the matrix unit into a zero accumulator — the change of
  float format before it is the identity on the extended reals —, adds the bias row to every row of the product, and
  applies `h · (tanh (h · z) + 1)` with `h` the float one half. So at row `p` of the block and head `q` the stored
  value is

      h · (tanh (h · (∑ₖ xb[p,k] · wb[q,k] + bb[0,q])) + 1).

  The matrix product is read as a sum over the ONE contracted axis (both operands contract their second axis): the
  contraction index is re-indexed by its single coordinate, and the operand indices at output `(p, q)` and position
  `k` are `(p, k)` and `(q, k)`, axis by axis.
-/
import proofs.«409818_j46265387712928_3_alg».proof.Proof.Gen.KernelIdeal.Skeleton
import Idealize.ShloMosaic.Lib.ValueIdx
import Idealize.ShloMosaic.Lib.Pipeline.Value
import Idealize.ShloMosaic.PureOps.Ideal.Laws
import proofs.«409818_j46265387712928_3_alg».proof.Proof.Heads

noncomputable section

namespace Cert.KernelIdeal.StepValue

open Cert.KernelIdeal Cert.KernelIdeal.Gen Idealize.ShloMosaic Idealize.ShloMosaic.ValueIdx

/-! ## The matrix product at an entry -/

theorem lhs_axis0 (i : S2048x1024.Idx) (κ : dot_S2048x256_S1024x256_S2048x1024_1_1_0_0_n_n.contr.Idx) :
    (dot_S2048x256_S1024x256_S2048x1024_1_1_0_0_n_n.lhsIdx i κ 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_axis1 (i : S2048x1024.Idx) (κ : dot_S2048x256_S1024x256_S2048x1024_1_1_0_0_n_n.contr.Idx) :
    (dot_S2048x256_S1024x256_S2048x1024_1_1_0_0_n_n.lhsIdx i κ 1).val = (κ ⟨0, by decide⟩).val :=
  dot_S2048x256_S1024x256_S2048x1024_1_1_0_0_n_n.lhsIdx_val_of_single rfl i κ
theorem rhs_axis0 (i : S2048x1024.Idx) (κ : dot_S2048x256_S1024x256_S2048x1024_1_1_0_0_n_n.contr.Idx) :
    (dot_S2048x256_S1024x256_S2048x1024_1_1_0_0_n_n.rhsIdx i κ 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_axis1 (i : S2048x1024.Idx) (κ : dot_S2048x256_S1024x256_S2048x1024_1_1_0_0_n_n.contr.Idx) :
    (dot_S2048x256_S1024x256_S2048x1024_1_1_0_0_n_n.rhsIdx i κ 1).val = (κ ⟨0, by decide⟩).val :=
  dot_S2048x256_S1024x256_S2048x1024_1_1_0_0_n_n.rhsIdx_val_of_single rfl i κ

/-- The product of a 2048×256 block with the transpose of a 1024×256 matrix, into the zero accumulator, at `(p, q)`:
    the sum over `k` of the block's `(p, k)` times the matrix's `(q, k)`. -/
theorem product_apply {φ₁ φ₂ : FTy} (xb : FVec Ideal S2048x256 φ₁) (wb : FVec Ideal S1024x256 φ₂) (p : Fin 2048) (q : Fin 1024) :
    matmul dot_S2048x256_S1024x256_S2048x1024_1_1_0_0_n_n none xb wb (constant S2048x1024 .f32 0x00000000#32) (ix2 p q)
      = ∑ k : Fin 256, xb (ix2 p k) * wb (ix2 q k) := by
  simp only [matmul]
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 p q) ((ValueIdx.contrEquiv1 dot_S2048x256_S1024x256_S2048x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S2048x256_S1024x256_S2048x1024_1_1_0_0_n_n.rhsIdx (ix2 p q) ((ValueIdx.contrEquiv1 dot_S2048x256_S1024x256_S2048x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## The bias row under every row -/

/-- The bias row, cast to its own shape and repeated down the 2048 rows, at `(p, q)` is its entry `(0, q)`. -/
theorem bias_apply (bb : Vec Ideal S1x1024 .f32) (p : Fin 2048) (q : Fin 1024) :
    broadcastTo S2048x1024 (shapeCast S1x1024 bb shapeCasts_S1x1024_S1x1024) broadcasts_S1x1024_S2048x1024 (ix2 p q)
      = bb (ix2 0 q) := by
  rw [shapeCast_self]
  exact broadcastTo_apply bb broadcasts_S1x1024_S2048x1024 (ix2 p q) (ix2 0 q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

/-! ## The stored value -/

/-- The step's stored value at any entry, its pointwise operations opened: `h · (tanh (h · (product + bias)) + 1)` with the
    two floats still as their bit patterns. -/
theorem stored_pointwise (xb : Vec Ideal S2048x256 .f32) (wb : Vec Ideal S1024x256 .f32) (bb : Vec Ideal S1x1024 .f32) (j : S2048x1024.Idx) :
    k0_pay1 xb wb bb j
      = Ideal.ofBits .f32 0x3F000000#32 * (Ideal.tanh (Ideal.ofBits .f32 0x3F000000#32 *
          (matmul (F := Ideal) dot_S2048x256_S1024x256_S2048x1024_1_1_0_0_n_n none (truncf (F := Ideal) .bf16 xb bitsLt_bf16_f32) (truncf (F := Ideal) .bf16 wb bitsLt_bf16_f32) (constant (F := Ideal) S2048x1024 .f32 0x00000000#32) j
            + broadcastTo S2048x1024 (shapeCast S1x1024 bb shapeCasts_S1x1024_S1x1024) broadcasts_S1x1024_S2048x1024 j))
          + Ideal.ofBits .f32 0x3F800000#32) := rfl

/-- The step's stored value at row `p`, head `q`. -/
theorem stored_apply (xb : Vec Ideal S2048x256 .f32) (wb : Vec Ideal S1024x256 .f32) (bb : Vec Ideal S1x1024 .f32) (p : Fin 2048) (q : Fin 1024) :
    k0_pay1 xb wb bb (ix2 p q)
      = ((1 / 2 : ℝ) : EReal) * (Ideal.tanh (((1 / 2 : ℝ) : EReal) * ((∑ k : Fin 256, xb (ix2 p k) * wb (ix2 q k)) + bb (ix2 0 q))) + 1) := by
  rw [stored_pointwise, product_apply, bias_apply, Cert.SigmoidLaw.ofBits_half, Cert.SigmoidLaw.ofBits_one]
  rfl

/-- A step's stored value at entry `j` is `heads` of three whole arrays at entry `i`, whenever the step's blocks are those
    arrays read at the matching places: the feature block's row `j 0` is the features' row `i 0`, the weight block's row
    `j 1` is the weights' row `i 1`, and the bias row at `j 1` is the bias at `i 1`. The two spellings of the logistic
    function meet here. -/
theorem stored_eq_heads (xb : Vec Ideal S2048x256 .f32) (wb : Vec Ideal S1024x256 .f32) (bb : Vec Ideal S1x1024 .f32)
    (X : (⟨2, ![32768, 256]⟩ : Shape).Idx → EReal) (W : (⟨2, ![1024, 256]⟩ : Shape).Idx → EReal)
    (B : (⟨1, ![1024]⟩ : Shape).Idx → EReal) (j : S2048x1024.Idx) (i : (⟨2, ![32768, 1024]⟩ : Shape).Idx)
    (hx : ∀ k : Fin 256, xb (ix2 (j 0) k) = X (ix2 (i 0) k))
    (hw : ∀ k : Fin 256, wb (ix2 (j 1) k) = W (ix2 (i 1) k))
    (hb : bb (ix2 0 (j 1)) = B (ix1 (i 1))) :
    k0_pay1 xb wb bb j = Cert.Heads.heads X W B i := by
  obtain ⟨p, q, rfl⟩ : ∃ (p : Fin 2048) (q : Fin 1024), j = ix2 p q := ⟨j 0, j 1, eq_ix2 j⟩
  obtain ⟨r, n, rfl⟩ : ∃ (r : Fin 32768) (n : Fin 1024), i = ix2 r n := ⟨i 0, i 1, eq_ix2 i⟩
  have hx' : ∀ k : Fin 256, xb (ix2 p k) = X (ix2 r k) := hx
  have hw' : ∀ k : Fin 256, wb (ix2 q k) = W (ix2 n k) := hw
  have hb' : bb (ix2 0 q) = B (ix1 n) := hb
  rw [stored_apply, Cert.Heads.heads_apply_tanh, Cert.Heads.logit, hb']
  simp only [hx', hw']

end Cert.KernelIdeal.StepValue

end
-- ==== Proof.Region.lean ====
/-
  From the steps to the whole product array, and on to the result.

  The grid has 16 steps. Step `t` reads rows `2048·t … 2048·t + 2047` of the features, the whole weight matrix and the
  whole bias row at every step, and writes rows `2048·t … 2048·t + 2047` of the 32768 × 1024 output. The bias row is the
  bias vector laid out as one row by the program before the steps start.

  * What step `t` writes back is block `t` of `heads` of the three argument arrays: at entry `j` of the block the
    step's feature row is the features' row `2048·t + j 0`, its weight row is the weights' row `j 1`, its bias entry is
    `b[j 1]` — the relations between the steps' block indices are decided once over the 16 steps.
  * Every row lies in exactly the step `row / 2048`, so the 16 blocks cover the array and it ends holding `heads`.
  * After the steps the program lays the array out again as 32768 × 32 × 16 × 2; the result is that re-layout of `heads`.
-/
import proofs.«409818_j46265387712928_3_alg».proof.Proof.Gen.KernelIdeal.Frame
import proofs.«409818_j46265387712928_3_alg».proof.Proof.Payload
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- `heads` of the three argument arrays as launched. -/
abbrev out (c : Dev nD) : S32768x1024.Idx → EReal :=
  Cert.Heads.heads (m ((c : Thread nD τ).loc main_arg0)) (m ((c : Thread nD τ).loc main_arg1)) (m ((c : Thread nD τ).loc main_arg2))

/-- The bias row the steps read is the bias vector laid out as one row. -/
theorem bias_row (c : Dev nD) :
    (V m c main_v0 : S1x1024.Idx → EReal) = shapeCast S1x1024 (m ((c : Thread nD τ).loc main_arg2)) shapeCasts_S1024_S1x1024 := by
  show StableHlo.after hostOps0 (fun b => m (c, b)) (Proc.devRef .tc main_v0) = _
  after_results
  rfl

/-- The steps' block indices, decided over the 16 steps: the features' and the output's row blocks move together, one per
    step; every other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every row block of the output is some step's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- What step `t` writes back is block `t` of `out`. -/
theorem flushed_eq (c : Dev nD) (t : Fin cfg0.N) :
    (dats m 0 c).flushed 3 t = ((cfg0.win 3).blk t).view.read (Elt Ideal) (out m c) := by
  show (cfg0.win 3).cut (grid0.coords t) ((dats m 0 c).after 3 t) = _
  rw [after0_3]
  unfold out0_3
  rw [View.canon_unit_zero hz]
  simp only [View.ld_unit_zero (S := S2048x256) hz, View.ld_unit_zero (S := S1024x256) hz, View.ld_unit_zero (S := S1x1024) hz]
  obtain ⟨e0, e1, e2, e3, e4, e5, e6, e7⟩ := idx_facts t
  funext j
  show k0_pay1 (iblk m c 0 t) (iblk m c 1 t) (iblk m c 2 t) j = out m c (((cfg0.win 3).blk t).view.emb j)
  refine Cert.KernelIdeal.StepValue.stored_eq_heads (iblk m c 0 t) (iblk m c 1 t) (iblk m c 2 t)
    (m ((c : Thread nD τ).loc main_arg0)) (m ((c : Thread nD τ).loc main_arg1)) (m ((c : Thread nD τ).loc main_arg2))
    j (((cfg0.win 3).blk t).view.emb j) ?_ ?_ ?_
  · -- the feature block's row `j 0` is the features' row `2048·t + j 0`
    intro k
    show V m c main_arg0 (((cfg0.win 0).blk t).view.emb (ix2 (j 0) k)) = _
    rw [V_main_arg0]
    refine congrArg (m ((c : Thread nD τ).loc main_arg0)) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 256 + 1 * k.val = k.val; omega
  · -- the weight block is the whole weight matrix
    intro k
    show V m c main_arg1 (((cfg0.win 1).blk t).view.emb (ix2 (j 1) k)) = _
    rw [V_main_arg1]
    refine congrArg (m ((c : Thread nD τ).loc main_arg1)) (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 256 + 1 * k.val = k.val; omega
  · -- the bias row at `j 1` is the bias vector at `j 1`
    show V m c main_v0 (((cfg0.win 2).blk t).view.emb (ix2 0 (j 1))) = _
    rw [bias_row]
    refine shapeCast_apply _ shapeCasts_S1024_S1x1024 _ _ ?_
    rw [Shape.rowMajor_val_one, Shape.rowMajor_val_two]
    show win0_3.index t (1 : Fin 2) * 1024 + 1 * (j 1).val = (win0_2.index t (0 : Fin 2) * 1 + 1 * 0) * 1024 + (win0_2.index t (1 : Fin 2) * 1024 + 1 * (j 1).val)
    omega

/-- An entry of the output lies in step `t`'s block iff each coordinate lies in the block's range on its axis. -/
theorem mem_blk (t : Fin cfg0.N) (i : S32768x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1).slice (win0_3.rect t)).set ↔ _
  rw [View.set_slice_whole, Rect.mem_set_unit]
  exact Iff.rfl

/-- Every entry is written by a step: the one whose number is the entry's row divided by 2048. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- So after the 16 steps the output array holds `out`. -/
theorem final (c : Dev nD) : (dats m 0 c).arrAt 3 cfg0.N = out m c :=
  (dats m 0 c).arrAt_eq_of_cover 3 (out m c) (fun t _ => flushed_eq m c t) covered

/-- The program's result: the re-layout of `out` as 32768 × 32 × 16 × 2. -/
theorem result_eq (c : Dev nD) :
    Pipeline.afterTail₀ cfgs (dats m) 0 (V0 m) [hostOps1] c main_v2
      = shapeCast S32768x32x16x2 (out m c) shapeCasts_S32768x1024_S32768x32x16x2 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = out m c :=
    (Pipeline.withArrays_arr spec0 launch0.win.arr_inj c _ _ 3).trans (final m c)
  exact congrArg (fun v => shapeCast S32768x32x16x2 v shapeCasts_S32768x1024_S32768x32x16x2) e

/-- The program's run, read: every weakly fair execution terminates with the result at the re-layout of `out` and the three
    arguments unchanged. -/
theorem run : θ_run defs (onTc (τ := τ) (main (F := Ideal))) ⟨m, fun _ => 0, ρ⟩ fun r => ∀ c : Dev nD,
      r.2.mem ((c.tc : Thread nD τ).loc main_v2) = shapeCast S32768x32x16x2 (out m c) shapeCasts_S32768x1024_S32768x32x16x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.RegionValue

end
-- ==== Proof.RefHeads.lean ====
/-
  The reference computes `heads`.

  Its operations, read at row `r` and head `n` one after the other: the contraction of the features' row `r` with
  the weights' row `n` (a sum over the 256 features); the bias, first laid out as a single row and then repeated down
  the rows, which at `(r, n)` is `b[n]`; their sum; its negation; the exponential; `1 +` that; and `1 /` the result.
  That is `heads` as defined, once the float `1.0` is read as the number one and the operand indices the
  operations compute are recognised as `(r, k)`, `(n, k)` and `n`.
-/
import proofs.«409818_j46265387712928_3_alg».proof.Proof.Gen.ReferenceIdeal.Read
import proofs.«409818_j46265387712928_3_alg».proof.Proof.Heads

noncomputable section

namespace Cert.ReferenceIdeal.RefHeads

open Cert.ReferenceIdeal Cert.ReferenceIdeal.Gen Cert.ReferenceIdeal.Read Idealize.ShloMosaic Idealize.ShloMosaic.ValueIdx

/-- The left operand's index at output `i`, position `k`: row `i 0`, feature `k`. -/
theorem lidx_eq (i : S32768x1024.Idx) (k : Fin 256) : lidx_main_v0 i k = ix2 (i 0) k :=
  funext fun a => Fin.ext (by match a with | ⟨0, _⟩ => rfl | ⟨1, _⟩ => rfl)
/-- The right operand's: head `i 1`, feature `k`. -/
theorem ridx_eq (i : S32768x1024.Idx) (k : Fin 256) : ridx_main_v0 i k = ix2 (i 1) k :=
  funext fun a => Fin.ext (by match a with | ⟨0, _⟩ => rfl | ⟨1, _⟩ => rfl)
/-- The bias, through its two re-layouts, is read at head `i 1`. -/
theorem bidx_eq (i : S32768x1024.Idx) : idx_main_v1 (idx_main_v2 i) = ix1 (i 1) :=
  funext fun a => Fin.ext (by match a with | ⟨0, _⟩ => rfl)

/-- The reference's value before its last re-layout is `heads` of its three arguments. -/
theorem stage_eq (x : (⟨S32768x256, .f32⟩ : BufTy).Contents (Elt Ideal)) (w : (⟨S1024x256, .f32⟩ : BufTy).Contents (Elt Ideal))
    (b : (⟨S1024, .f32⟩ : BufTy).Contents (Elt Ideal)) :
    val_main_v9 (F := Ideal) x w b = Cert.Heads.heads x w b := by
  funext i
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  simp only [lidx_eq, ridx_eq, bidx_eq, Ideal.hostDivf_def, Ideal.addf_def, Ideal.hostUnary_exp_def, Ideal.hostNegf_def,
    Ideal.negf_def, Ideal.ofBits_def, Cert.SigmoidLaw.ofBits_one]
  rfl

end Cert.ReferenceIdeal.RefHeads

end
-- ==== Proof.lean ====
/-
  1024 logistic heads over a batch: the kernel against its reference, over the extended reals.

  Both programs take features `x` (32768 × 256), weights `w` (1024 × 256) and biases `b` (1024), and return, laid out as
  32768 × 32 × 16 × 2, the array whose entry at row `r` and head `n` is the logistic function of the logit
  `z = ∑ₖ x[r,k] · w[n,k] + b[n]`.

  * The reference spells the logistic function `1 / (1 + exp (-z))`; that is the definition of `Cert.Heads.heads`, and the
    reference's value before its last re-layout is `heads x w b` (Proof/RefHeads.lean).
  * The kernel works in 16 steps of 2048 rows. A step multiplies its feature block by the transposed weights into a zero
    accumulator (on the extended reals the narrowing of the operands' float format is the identity and the product is
    the exact sum of the 256 products), adds the bias, and spells the logistic function `h · (tanh (h · z) + 1)` with `h`
    one half (Proof/Payload.lean). The two spellings agree at every extended real, `±∞` included (Proof/SigmoidLaw.lean),
    so nothing about the inputs being finite is used. The 16 blocks tile the output, which therefore ends holding
    `heads x w b`, and the kernel's last line is the same re-layout (Proof/Region.lean).

  The frames of the two kernel programs are their generated frame runs; the reference's is its generated run with the
  result dropped; the idealization rewrote nothing, so `preserves` is `True`.
-/
import proofs.«409818_j46265387712928_3_alg».proof.Defs
import proofs.«409818_j46265387712928_3_alg».proof.Proof.Gen.Kernel
import proofs.«409818_j46265387712928_3_alg».proof.Proof.Gen.Kernel.Skeleton
import proofs.«409818_j46265387712928_3_alg».proof.Proof.Gen.Kernel.Launch
import proofs.«409818_j46265387712928_3_alg».proof.Proof.Gen.Kernel.Points
import proofs.«409818_j46265387712928_3_alg».proof.Proof.Gen.Kernel.Frame
import proofs.«409818_j46265387712928_3_alg».proof.Proof.Gen.KernelIdeal
import proofs.«409818_j46265387712928_3_alg».proof.Proof.Gen.KernelIdeal.Skeleton
import proofs.«409818_j46265387712928_3_alg».proof.Proof.Gen.KernelIdeal.Launch
import proofs.«409818_j46265387712928_3_alg».proof.Proof.Gen.KernelIdeal.Points
import proofs.«409818_j46265387712928_3_alg».proof.Proof.Gen.KernelIdeal.Frame
import proofs.«409818_j46265387712928_3_alg».proof.Proof.Gen.ReferenceIdeal
import proofs.«409818_j46265387712928_3_alg».proof.Proof.Gen.ReferenceIdeal.Run
import proofs.«409818_j46265387712928_3_alg».proof.Proof.Gen.ReferenceIdeal.Read
import proofs.«409818_j46265387712928_3_alg».proof.Proof.Gen.Pre_finite_inputs
import proofs.«409818_j46265387712928_3_alg».proof.Proof.Region
import proofs.«409818_j46265387712928_3_alg».proof.Proof.RefHeads
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the re-layout of `heads x w b`. -/
theorem algebraic : Cert.algebraic_KernelIdeal_ReferenceIdeal := by
  intro m ρ m' ρ' _ hagree
  refine ⟨fun c => shapeCast _ (Cert.KernelIdeal.RegionValue.out m c) Cert.KernelIdeal.Gen.shapeCasts_S32768x1024_S32768x32x16x2,
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2]
  unfold Cert.ReferenceIdeal.Read.val_main_v10
  rw [Cert.ReferenceIdeal.RefHeads.stage_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
